-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_

variable [Facts]

def fn {F : FTy → Type} [FloatOps F] (main_arg0 : FVec F S2x2048x1024 .f32) (main_arg1 : FVec F S3072x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  main_v8
-- ==== Kernel.lean ====
abbrev S2x2048x1024 : Shape := ⟨3, ![2, 2048, 1024]⟩
abbrev S3072x1024 : Shape := ⟨2, ![3072, 1024]⟩
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S32x2048x64 : Shape := ⟨3, ![32, 2048, 64]⟩
abbrev S1x2048x64 : Shape := ⟨3, ![1, 2048, 64]⟩
abbrev S2048x64 : Shape := ⟨2, ![2048, 64]⟩
abbrev S2048x2048 : Shape := ⟨2, ![2048, 2048]⟩
abbrev S2x2048x16x64 : Shape := ⟨4, ![2, 2048, 16, 64]⟩

abbrev nBuf : Space → Nat
  | .hbm => 19
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S2x2048x1024, .bf16⟩
  | .hbm, ⟨3, _⟩ => ⟨S4096x1024, .bf16⟩
  | .hbm, ⟨4, _⟩ => ⟨S3072x1024, .bf16⟩
  | .hbm, ⟨5, _⟩ => ⟨S1024x3072, .bf16⟩
  | .hbm, ⟨6, _⟩ => ⟨S4096x3072, .bf16⟩
  | .hbm, ⟨7, _⟩ => ⟨S2x2048x16x192, .bf16⟩
  | .hbm, ⟨8, _⟩ => ⟨S2x16x2048x192, .bf16⟩
  | .hbm, ⟨9, _⟩ => ⟨S2x16x2048x64, .bf16⟩
  | .hbm, ⟨10, _⟩ => ⟨S2x16x2048x64, .bf16⟩
  | .hbm, ⟨11, _⟩ => ⟨S2x16x2048x64, .bf16⟩
  | .hbm, ⟨12, _⟩ => ⟨S32x2048x64, .bf16⟩
  | .hbm, ⟨13, _⟩ => ⟨S32x2048x64, .bf16⟩
  | .hbm, ⟨14, _⟩ => ⟨S32x2048x64, .bf16⟩
  | .hbm, ⟨15, _⟩ => ⟨S32x2048x64, .f32⟩
  | .hbm, ⟨16, _⟩ => ⟨S2x16x2048x64, .f32⟩
  | .hbm, ⟨17, _⟩ => ⟨S2x2048x16x64, .f32⟩
  | .hbm, ⟨18, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .f32⟩
  | .local _ .vmem, ⟨12, _⟩ => ⟨S1x2048x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S2x2048x1024_S4096x1024 : S2x2048x1024.ShapeCasts S4096x1024
  transposes_S3072x1024_S1024x3072_1_0 : S3072x1024.Transposes [1, 0] S1024x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x16x192 : S4096x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  shapeCasts_S2x16x2048x64_S32x2048x64 : S2x16x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S512x1024_S1024x3072_S512x3072_1_0_0_1_n_n_wf : DotDims.WF S512x1024 S1024x3072 S512x3072 [1] [0] [0] [1] [] []
  dot_S2048x64_S2048x64_S2048x2048_1_1_0_0_n_n_wf : DotDims.WF S2048x64 S2048x64 S2048x2048 [1] [1] [0] [0] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .bf16 = 32 ∨ (Rect.block (s := S4096x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S32x2048x64.size a
  hwx1_0 : ∀ i : grid1.Coords, EltTy.bits .bf16 = 32 ∨ (Rect.block (s := S32x2048x64) S1x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x64.size a ≤ S32x2048x64.size a
  hwx1_3 : ∀ i : grid1.Coords, EltTy.bits .f32 = 32 ∨ (Rect.block (s := S32x2048x64) S1x2048x64.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S2x2048x3072 : Shape := ⟨3, ![2, 2048, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x2048x16x64 : Shape := ⟨4, ![2, 2048, 16, 64]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S2x2048x3072, .f32⟩
  | .hbm, ⟨3, _⟩ => ⟨S2x2048x16x192, .f32⟩
  | .hbm, ⟨4, _⟩ => ⟨S2x16x2048x192, .f32⟩
  | .hbm, ⟨5, _⟩ => ⟨S2x16x2048x64, .f32⟩
  | .hbm, ⟨6, _⟩ => ⟨S2x16x2048x64, .f32⟩
  | .hbm, ⟨7, _⟩ => ⟨S2x16x2048x64, .f32⟩
  | .hbm, ⟨8, _⟩ => ⟨S2x16x2048x2048, .f32⟩
  | .hbm, ⟨9, _⟩ => ⟨S_, .f32⟩
  | .hbm, ⟨10, _⟩ => ⟨S2x16x2048x2048, .f32⟩
  | .hbm, ⟨11, _⟩ => ⟨S2x16x2048x2048, .f32⟩
  | .hbm, ⟨12, _⟩ => ⟨S2x16x2048x64, .f32⟩
  | .hbm, ⟨13, _⟩ => ⟨S2x2048x16x64, .f32⟩
  | .hbm, ⟨14, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibMatmulPlain.lean ====
/-
  A plain matrix product read at an index.

  For `l` of `M` rows and `K` columns and `r` of `K` rows and `N` columns, the product that contracts the columns of
  `l` with the rows of `r` into a zero accumulator has, at `(p, n)`, the inner product of row `p` of `l` with column
  `n` of `r`: `∑ k, l (p, k) * r (k, n)`. On the extended reals the accumulator's zero adds nothing, and the
  contraction index, which the dimension record keeps as a one-axis shape, is re-indexed by its one coordinate.
  Stated for the dimension record `DotDims.plain M K N`; a printed record with the same six lists is that record (its
  last field is a proof), so the lemma applies to it after a `show`.
-/
import Idealize.ShloMosaic.Lib.ValueIdx
import Idealize.ShloMosaic.PureOps.Ideal.Laws

noncomputable section

namespace Cert.LibMatmulPlain

open Idealize.ShloMosaic Idealize.ShloMosaic.ValueIdx

variable {M K N : ℕ}

/-- The left operand's index keeps the output's row. -/
theorem lhs_axis0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column is the contraction coordinate. -/
theorem lhs_axis1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_axis0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_axis1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The two operand indices over the output index `(p, n)` and the contraction coordinate `k`. -/
theorem lhsIdx_eq (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

theorem rhsIdx_eq (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ => exact (rhs_axis0 _ _).trans (contrEquiv1_symm_val (DotDims.plain M K N) K rfl rfl k)
    | ⟨1, _⟩ => exact rhs_axis1 _ _)

/-- `l · r` into the zero accumulator, at `(p, n)`: the inner product of row `p` of `l` and column `n` of `r`. -/
theorem matmul_zero_apply {φ₁ φ₂ : FTy} (l : FVec Ideal ⟨2, ![M, K]⟩ φ₁) (r : FVec Ideal ⟨2, ![K, N]⟩ φ₂)
    (prec : Option ContractPrecision) (p : Fin M) (n : Fin N) :
    FloatOps.matmul (DotDims.plain M K N) prec l r (constant ⟨2, ![M, N]⟩ .f32 0x00000000#32) (ix2 p n)
      = ∑ k : Fin K, l (ix2 p k) * r (ix2 k n) := by
  rw [Ideal.matmul_constant_zero_apply, ← Equiv.sum_comp (contrEquiv1 (DotDims.plain M K N) K rfl rfl).symm]
  exact Finset.sum_congr rfl fun k _ => by rw [lhsIdx_eq, rhsIdx_eq]

/-- The host's product of the same two matrices, at `(p, n)`: the same inner product, whatever the schedule. -/
theorem dotGeneral_apply {φ₁ φ₂ : FTy} (l : FVec Ideal ⟨2, ![M, K]⟩ φ₁) (r : FVec Ideal ⟨2, ![K, N]⟩ φ₂)
    (prec : Option ContractPrecision) (sched : HostSchedule) (p : Fin M) (n : Fin N) :
    FloatOps.dotGeneral (DotDims.plain M K N) prec sched l r (ix2 p n) = ∑ k : Fin K, l (ix2 p k) * r (ix2 k n) := by
  rw [Ideal.dotGeneral_apply, ← Equiv.sum_comp (contrEquiv1 (DotDims.plain M K N) K rfl rfl).symm]
  exact Finset.sum_congr rfl fun k _ => by rw [lhsIdx_eq, rhsIdx_eq]

end Cert.LibMatmulPlain

end
-- ==== Proof.LibMatmulRows.lean ====
/-
  A matrix product whose right factor is stored row by row, read at an index.

  For `l` of `M` rows and `K` columns and `r` of `N` rows and `K` columns, the product that contracts the last axis of
  both (`l · rᵀ`) into a zero accumulator has, at `(p, n)`, the inner product of row `p` of `l` with row `n` of `r`:
  `∑ k, l (p, k) * r (n, k)`. On the extended reals the accumulator's zero adds nothing, and the contraction index,
  which the dimension record keeps as a one-axis shape, is re-indexed by its one coordinate. Stated for the dimension
  record `DotDims.transposedRhs M K N`; a printed record with the same six lists is that record (its last field is a
  proof), so the lemma applies to it after a `show`.
-/
import Idealize.ShloMosaic.Lib.ValueIdx
import Idealize.ShloMosaic.PureOps.Ideal.Laws

noncomputable section

namespace Cert.LibMatmulRows

open Idealize.ShloMosaic Idealize.ShloMosaic.ValueIdx

variable {M K N : ℕ}

/-- The left operand's index keeps the output's row. -/
theorem lhs_axis0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction coordinate. -/
theorem lhs_axis1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem rhs_axis0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction coordinate. -/
theorem rhs_axis1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- `l · rᵀ` into the zero accumulator, at `(p, n)`: the inner product of row `p` of `l` and row `n` of `r`. -/
theorem matmul_zero_apply {φ₁ φ₂ : FTy} (l : FVec Ideal ⟨2, ![M, K]⟩ φ₁) (r : FVec Ideal ⟨2, ![N, K]⟩ φ₂)
    (prec : Option ContractPrecision) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p n) ((contrEquiv1 (DotDims.transposedRhs M K N) K rfl rfl).symm k) = ix2 p k :=
    funext fun a => Fin.ext (by
      match a with
      | ⟨0, _⟩ => exact lhs_axis0 _ _
      | ⟨1, _⟩ => exact (lhs_axis1 _ _).trans hk)
  have er : (DotDims.transposedRhs M K N).rhsIdx (ix2 p n) ((contrEquiv1 (DotDims.transposedRhs M K N) K rfl rfl).symm k) = ix2 n k :=
    funext fun a => Fin.ext (by
      match a with
      | ⟨0, _⟩ => exact rhs_axis0 _ _
      | ⟨1, _⟩ => exact (rhs_axis1 _ _).trans hk)
  rw [el, er]

end Cert.LibMatmulRows

end
-- ==== Proof.Pay.lean ====
/-
  What each kernel body stores, read at one index, on the extended reals.

  The projection body stores the product of its block of rows of `x` (512 rows, 1024 columns) with the whole
  transposed weight (1024 rows, 3072 columns): at row `r`, column `f`, the inner product of row `r` of the one with
  column `f` of the other. The narrowing to bf16 and the casts of a shape to itself change nothing.

  The attention body holds one head's queries, keys and values (2048 rows, 64 columns each, behind a leading axis of
  extent one). It stores, at row `q` and column `d`, the sum over the key rows `k` of the score of `q` against `k` —
  the inner product of query row `q` with key row `k`, times the constant of the word 0x3E000000 — times the value at
  row `k`, column `d`.
-/
import proofs.«182077_j63848983822744_1_alg».proof.Proof.Gen.KernelIdeal.Skeleton
import proofs.«182077_j63848983822744_1_alg».proof.Proof.LibMatmulPlain
import proofs.«182077_j63848983822744_1_alg».proof.Proof.LibMatmulRows
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- A `[1, 2048, 64]` block seen as a `[2048, 64]` matrix: entry `(q, d)` is the block's `(0, q, d)`. -/
theorem drop_lead {α : Type} (v : S1x2048x64.Idx → α) (h : S1x2048x64.ShapeCasts S2048x64) (q : Fin 2048) (d : Fin 64) :
    shapeCast S2048x64 v h (ix2 q d) = v (ix3 (0 : Fin 1) q d) :=
  shapeCast_apply v h _ _ (by
    rw [Shape.rowMajor_val_three, Shape.rowMajor_val_two]
    show ((0 : Fin 1).val * 2048 + q.val) * 64 + d.val = q.val * 64 + d.val
    simp)

/-- A `[2048, 64]` matrix seen as a `[1, 2048, 64]` block: entry `(z, q, d)` is the matrix's `(q, d)`. -/
theorem add_lead {α : Type} (v : S2048x64.Idx → α) (h : S2048x64.ShapeCasts S1x2048x64) (z : Fin 1) (q : Fin 2048) (d : Fin 64) :
    shapeCast S1x2048x64 v h (ix3 z q d) = v (ix2 q d) :=
  shapeCast_apply v h _ _ (by
    rw [Shape.rowMajor_val_two, Shape.rowMajor_val_three]
    show q.val * 64 + d.val = (z.val * 2048 + q.val) * 64 + d.val
    have hz : z.val = 0 := by have := z.isLt; omega
    rw [hz]; simp)

/-- The projection body's stored block at row `r`, column `f`. -/
theorem pay0_apply (x0 : Vec Ideal S512x1024 .bf16) (x1 : Vec Ideal S1024x3072 .bf16) (r : Fin 512) (f : Fin 3072) :
    k0_pay1 (F := Ideal) x0 x1 (ix2 r f) = ∑ e : Fin 1024, x0 (ix2 r e) * x1 (ix2 e f) := by
  unfold k0_pay1
  show FloatOps.matmul (F := Ideal) (φ₁ := .bf16) (φ₂ := .bf16) (DotDims.plain 512 1024 3072) none (shapeCast S512x1024 x0 shapeCasts_S512x1024_S512x1024)
      (shapeCast S1024x3072 x1 shapeCasts_S1024x3072_S1024x3072) (constant ⟨2, ![512, 3072]⟩ .f32 0x00000000#32) (ix2 r f) = _
  rw [Cert.LibMatmulPlain.matmul_zero_apply]
  simp only [shapeCast_self]

/-- The attention body's stored block at `(z, q, d)`: the scores of query row `q`, scaled, against the values' column `d`. -/
theorem pay1_apply (x0 x1 x2 : Vec Ideal S1x2048x64 .bf16) (z : Fin 1) (q : Fin 2048) (d : Fin 64) :
    k1_pay1 (F := Ideal) x0 x1 x2 (ix3 z q d)
      = ∑ k : Fin 2048, ((∑ j : Fin 64, x0 (ix3 (0 : Fin 1) q j) * x1 (ix3 (0 : Fin 1) k j)) * Ideal.ofBits .f32 0x3E000000#32)
          * x2 (ix3 (0 : Fin 1) k d) := by
  unfold k1_pay1
  rw [add_lead]
  show FloatOps.matmul (F := Ideal) (φ₁ := .bf16) (φ₂ := .bf16) (DotDims.plain 2048 2048 64) none
      (truncf .bf16 (mulf (FloatOps.matmul (F := Ideal) (φ₁ := .bf16) (φ₂ := .bf16) (DotDims.transposedRhs 2048 64 2048) none
          (shapeCast S2048x64 x0 shapeCasts_S1x2048x64_S2048x64) (shapeCast S2048x64 x1 shapeCasts_S1x2048x64_S2048x64)
          (constant ⟨2, ![2048, 2048]⟩ .f32 0x00000000#32))
        (broadcast S2048x2048 (Scalar.ofBits (F := Ideal) .f32 0x3E000000#32))) bitsLt_bf16_f32)
      (shapeCast S2048x64 x2 shapeCasts_S1x2048x64_S2048x64) (constant ⟨2, ![2048, 64]⟩ .f32 0x00000000#32) (ix2 q d) = _
  rw [Cert.LibMatmulPlain.matmul_zero_apply]
  refine Finset.sum_congr rfl fun k _ => ?_
  rw [truncf_apply, mulf_apply, Cert.LibMatmulRows.matmul_zero_apply, drop_lead]
  refine congrArg (· * _) (congrArg (· * _) (Finset.sum_congr rfl fun j _ => ?_))
  rw [drop_lead, drop_lead]

end Cert.KernelIdeal.Pay

end
-- ==== Proof.Proj.lean ====
/-
  The projection region: what its output array holds after the run, as one function of the two arrays it reads.

  The region has eight grid points. Point `t` fetches rows `512 t … 512 t + 511` of the tall matrix `a` (4096 rows,
  1024 columns), keeps the whole matrix `b` (1024 rows, 3072 columns) resident, and writes back rows
  `512 t … 512 t + 511` of the output (4096 rows, 3072 columns): at row `r` of the block and column `f` the inner
  product of the block's row `r` of `a` with column `f` of `b`. Row `r` of block `t` is row `512 t + r` of the array, so
  every written entry is the product `a · b` at its own place, and the eight blocks tile the output: the array ends
  holding `a · b`, whatever the two arrays are when the region is entered.
-/
import proofs.«182077_j63848983822744_1_alg».proof.Proof.Gen.KernelIdeal.Frame
import proofs.«182077_j63848983822744_1_alg».proof.Proof.Pay
import Idealize.ShloMosaic.Lib.Pipeline.Value

set_option maxRecDepth 16384

noncomputable section

namespace Cert.KernelIdeal.Proj

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two arrays the region reads, at their literal types. -/
abbrev rowsArr (c : Dev nD) : S4096x1024.Idx → EReal := V c main_v1
abbrev weightArr (c : Dev nD) : S1024x3072.Idx → EReal := V c main_v3

theorem zero_off : (![0, 0] : Fin 2 → Nat) = fun _ => 0 := funext fun a => by fin_cases a <;> rfl

/-- The product of a `[4096, 1024]` array with a `[1024, 3072]` array, entry by entry. -/
abbrev prod (a : S4096x1024.Idx → EReal) (b : S1024x3072.Idx → EReal) : S4096x3072.Idx → EReal :=
  fun i => ∑ e : Fin 1024, a (ix2 (i 0) e) * b (ix2 e (i 1))

/-- The printed index maps over the grid: the rows window moves with the output's, the weight window stays put. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every block row of the output is some point's. -/
theorem index_onto : ∀ q0 : Fin 8, ∃ t : Fin cfg0.N, win0_2.index t = ![q0.val, 0] :=
  (by decide +kernel : ∀ q0 : Fin 8, ∃ t : Fin grid0.N, win0_2.index t = ![q0.val, 0])

/-- What point `t` writes back is block `t` of the product of the two arrays as the region finds them. -/
theorem flushed (c : Dev nD) (t : Fin cfg0.N) :
    (dat0 V c).flushed 2 t = ((cfg0.win 2).blk t).view.read (Elt Ideal) (prod (rowsArr V c) (weightArr V c)) := by
  show (cfg0.win 2).cut (grid0.coords t) ((dat0 V c).after 2 t) = _
  rw [after0_2]
  unfold out0_2
  rw [View.canon_unit_zero zero_off]
  simp only [View.ld_unit_zero (S := S512x1024) zero_off, View.ld_unit_zero (S := S1024x3072) zero_off]
  obtain ⟨e0, e1, e2, e3, e4⟩ := index_facts t
  funext j
  obtain ⟨r, f, rfl⟩ : ∃ (r : Fin 512) (f : Fin 3072), j = ix2 r f := ⟨j 0, j 1, eq_ix2 j⟩
  show k0_pay1 (iblk0 V c 0 t) (iblk0 V c 1 t) (ix2 r f) = prod (rowsArr V c) (weightArr V c) (((cfg0.win 2).blk t).view.emb (ix2 r f))
  refine (Pay.pay0_apply _ _ r f).trans ?_
  refine Finset.sum_congr rfl fun e _ => ?_
  show rowsArr V c (((cfg0.win 0).blk t).view.emb (ix2 r e)) * weightArr V c (((cfg0.win 1).blk t).view.emb (ix2 e f))
      = rowsArr V c (ix2 ((((cfg0.win 2).blk t).view.emb (ix2 r f)) 0) e) * weightArr V c (ix2 e ((((cfg0.win 2).blk t).view.emb (ix2 r f)) 1))
  have h0 : ((cfg0.win 0).blk t).view.emb (ix2 r e) = ix2 ((((cfg0.win 2).blk t).view.emb (ix2 r f)) 0) e := by
    funext a; apply Fin.ext
    match a with
    | ⟨0, _⟩ => show win0_0.index t (0 : Fin 2) * 512 + 1 * r.val = win0_2.index t (0 : Fin 2) * 512 + 1 * r.val; omega
    | ⟨1, _⟩ => show win0_0.index t (1 : Fin 2) * 1024 + 1 * e.val = e.val; omega
  have h1 : ((cfg0.win 1).blk t).view.emb (ix2 e f) = ix2 e ((((cfg0.win 2).blk t).view.emb (ix2 r f)) 1) := by
    funext a; apply Fin.ext
    match a with
    | ⟨0, _⟩ => show win0_1.index t (0 : Fin 2) * 1024 + 1 * e.val = e.val; omega
    | ⟨1, _⟩ => show win0_1.index t (1 : Fin 2) * 3072 + 1 * f.val = win0_2.index t (1 : Fin 2) * 3072 + 1 * f.val; omega
  rw [h0, h1]
  rfl

/-- An index of the output is in point `t`'s block iff each coordinate is in the block's range on its axis. -/
theorem mem_blk (t : Fin cfg0.N) (i : S4096x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v4).slice (win0_2.rect t)).set ↔ _
  rw [View.set_slice_whole, Rect.mem_set_unit]
  exact Iff.rfl

/-- Every index of the output is in some point's block: row `n` is in block `n / 512`. -/
theorem cover (i : S4096x3072.Idx) : ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := index_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- The output array after the region: the product of the two arrays it read. -/
theorem final (c : Dev nD) : (dat0 V c).arrAt 2 cfg0.N = prod (rowsArr V c) (weightArr V c) :=
  (dat0 V c).arrAt_eq_of_cover 2 _ (fun t _ => flushed V c t) cover

end Cert.KernelIdeal.Proj

end
-- ==== Proof.Attn.lean ====
/-
  The attention region: what its output array holds after the run, as one function of the three arrays it reads.

  The region has thirty-two grid points, one per (batch, head) pair. Point `t` fetches slab `t` of the queries, of the
  keys and of the values (each array is 32 slabs of 2048 rows and 64 columns) and writes back slab `t` of the output:
  at row `q`, column `d`, the sum over key rows `k` of the scaled score of `q` against `k` times the value at `(k, d)`.
  Slab `t` of every window is slab `t` of its array, so each written entry is that same expression of the three
  arrays at its own place, and the thirty-two slabs tile the output.
-/
import proofs.«182077_j63848983822744_1_alg».proof.Proof.Gen.KernelIdeal.Frame
import proofs.«182077_j63848983822744_1_alg».proof.Proof.Pay
import Idealize.ShloMosaic.Lib.Pipeline.Value

set_option maxRecDepth 16384

noncomputable section

namespace Cert.KernelIdeal.Attn

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three arrays the region reads, at their literal types. -/
abbrev queryArr (c : Dev nD) : S32x2048x64.Idx → EReal := V c main_v10
abbrev keyArr (c : Dev nD) : S32x2048x64.Idx → EReal := V c main_v11
abbrev valueArr (c : Dev nD) : S32x2048x64.Idx → EReal := V c main_v12

theorem zero_off : (![0, 0, 0] : Fin 3 → Nat) = fun _ => 0 := funext fun a => by fin_cases a <;> rfl

/-- Scaled-score attention without a softmax, slab by slab: at `(s, q, d)` the sum over `k` of
    `(⟨query row q, key row k⟩ · 1/8) · value (k, d)`, all within slab `s`. -/
abbrev attend (aq ak av : S32x2048x64.Idx → EReal) : S32x2048x64.Idx → EReal :=
  fun i => ∑ k : Fin 2048, ((∑ j : Fin 64, aq (ix3 (i 0) (i 1) j) * ak (ix3 (i 0) k j)) * Ideal.ofBits .f32 0x3E000000#32)
    * av (ix3 (i 0) k (i 2))

/-- The printed index maps over the grid: all four windows stand on the same slab, at offset zero within it. -/
theorem index_facts : ∀ t : Fin cfg1.N, win1_0.index t (0 : Fin 3) = win1_3.index t (0 : Fin 3)
    ∧ win1_1.index t (0 : Fin 3) = win1_3.index t (0 : Fin 3) ∧ win1_2.index t (0 : Fin 3) = win1_3.index t (0 : Fin 3)
    ∧ win1_0.index t (1 : Fin 3) = 0 ∧ win1_0.index t (2 : Fin 3) = 0
    ∧ win1_1.index t (1 : Fin 3) = 0 ∧ win1_1.index t (2 : Fin 3) = 0
    ∧ win1_2.index t (1 : Fin 3) = 0 ∧ win1_2.index t (2 : Fin 3) = 0
    ∧ win1_3.index t (1 : Fin 3) = 0 ∧ win1_3.index t (2 : Fin 3) = 0 :=
  (by decide +kernel : ∀ t : Fin grid1.N, _)

/-- Every slab of the output is some point's. -/
theorem index_onto : ∀ q0 : Fin 32, ∃ t : Fin cfg1.N, win1_3.index t = ![q0.val, 0, 0] :=
  (by decide +kernel : ∀ q0 : Fin 32, ∃ t : Fin grid1.N, win1_3.index t = ![q0.val, 0, 0])

/-- What point `t` writes back is slab `t` of the attention of the three arrays as the region finds them. -/
theorem flushed (c : Dev nD) (t : Fin cfg1.N) :
    (dat1 V c).flushed 3 t = ((cfg1.win 3).blk t).view.read (Elt Ideal) (attend (queryArr V c) (keyArr V c) (valueArr V c)) := by
  show (cfg1.win 3).cut (grid1.coords t) ((dat1 V c).after 3 t) = _
  rw [after1_3]
  unfold out1_3
  rw [View.canon_unit_zero zero_off]
  simp only [View.ld_unit_zero (S := S1x2048x64) zero_off]
  obtain ⟨e0, e1, e2, e3, e4, e5, e6, e7, e8, e9, e10⟩ := index_facts t
  funext y
  obtain ⟨z, q, d, rfl⟩ : ∃ (z : Fin 1) (q : Fin 2048) (d : Fin 64), y = ix3 z q d := ⟨y 0, y 1, y 2, eq_ix3 y⟩
  have hz : z.val = 0 := by have := z.isLt; omega
  show k1_pay1 (iblk1 V c 0 t) (iblk1 V c 1 t) (iblk1 V c 2 t) (ix3 z q d)
      = attend (queryArr V c) (keyArr V c) (valueArr V c) (((cfg1.win 3).blk t).view.emb (ix3 z q d))
  refine (Pay.pay1_apply _ _ _ z q d).trans ?_
  refine Finset.sum_congr rfl fun k _ => ?_
  have hv : ((cfg1.win 2).blk t).view.emb (ix3 (0 : Fin 1) k d)
      = ix3 ((((cfg1.win 3).blk t).view.emb (ix3 z q d)) 0) k ((((cfg1.win 3).blk t).view.emb (ix3 z q d)) 2) := by
    funext a; apply Fin.ext
    match a with
    | ⟨0, _⟩ => show win1_2.index t (0 : Fin 3) * 1 + 1 * (0 : Fin 1).val = win1_3.index t (0 : Fin 3) * 1 + 1 * z.val; simp only [Fin.val_zero]; omega
    | ⟨1, _⟩ => show win1_2.index t (1 : Fin 3) * 2048 + 1 * k.val = k.val; omega
    | ⟨2, _⟩ => show win1_2.index t (2 : Fin 3) * 64 + 1 * d.val = win1_3.index t (2 : Fin 3) * 64 + 1 * d.val; omega
  have hq : ∀ j : Fin 64, ((cfg1.win 0).blk t).view.emb (ix3 (0 : Fin 1) q j)
      = ix3 ((((cfg1.win 3).blk t).view.emb (ix3 z q d)) 0) ((((cfg1.win 3).blk t).view.emb (ix3 z q d)) 1) j := by
    intro j; funext a; apply Fin.ext
    match a with
    | ⟨0, _⟩ => show win1_0.index t (0 : Fin 3) * 1 + 1 * (0 : Fin 1).val = win1_3.index t (0 : Fin 3) * 1 + 1 * z.val; simp only [Fin.val_zero]; omega
    | ⟨1, _⟩ => show win1_0.index t (1 : Fin 3) * 2048 + 1 * q.val = win1_3.index t (1 : Fin 3) * 2048 + 1 * q.val; omega
    | ⟨2, _⟩ => show win1_0.index t (2 : Fin 3) * 64 + 1 * j.val = j.val; omega
  have hk : ∀ j : Fin 64, ((cfg1.win 1).blk t).view.emb (ix3 (0 : Fin 1) k j)
      = ix3 ((((cfg1.win 3).blk t).view.emb (ix3 z q d)) 0) k j := by
    intro j; funext a; apply Fin.ext
    match a with
    | ⟨0, _⟩ => show win1_1.index t (0 : Fin 3) * 1 + 1 * (0 : Fin 1).val = win1_3.index t (0 : Fin 3) * 1 + 1 * z.val; simp only [Fin.val_zero]; omega
    | ⟨1, _⟩ => show win1_1.index t (1 : Fin 3) * 2048 + 1 * k.val = k.val; omega
    | ⟨2, _⟩ => show win1_1.index t (2 : Fin 3) * 64 + 1 * j.val = j.val; omega
  show ((∑ j : Fin 64, queryArr V c (((cfg1.win 0).blk t).view.emb (ix3 (0 : Fin 1) q j)) * keyArr V c (((cfg1.win 1).blk t).view.emb (ix3 (0 : Fin 1) k j)))
        * Ideal.ofBits .f32 0x3E000000#32) * valueArr V c (((cfg1.win 2).blk t).view.emb (ix3 (0 : Fin 1) k d))
      = ((∑ j : Fin 64, queryArr V c (ix3 ((((cfg1.win 3).blk t).view.emb (ix3 z q d)) 0) ((((cfg1.win 3).blk t).view.emb (ix3 z q d)) 1) j)
            * keyArr V c (ix3 ((((cfg1.win 3).blk t).view.emb (ix3 z q d)) 0) k j)) * Ideal.ofBits .f32 0x3E000000#32)
          * valueArr V c (ix3 ((((cfg1.win 3).blk t).view.emb (ix3 z q d)) 0) k ((((cfg1.win 3).blk t).view.emb (ix3 z q d)) 2))
  rw [hv]
  refine congrArg (· * _) (congrArg (· * _) (Finset.sum_congr rfl fun j _ => ?_))
  rw [hq j, hk j]
  rfl

/-- An index of the output is in point `t`'s slab iff each coordinate is in the slab's range on its axis. -/
theorem mem_blk (t : Fin cfg1.N) (i : S32x2048x64.Idx) :
    i ∈ ((cfg1.win 3).blk t).view.set ↔ ∀ a : Fin 3, win1_3.index t a * S1x2048x64.size a ≤ (i a).val ∧ (i a).val < win1_3.index t a * S1x2048x64.size a + S1x2048x64.size a := by
  show i ∈ ((View.whole main_v13).slice (win1_3.rect t)).set ↔ _
  rw [View.set_slice_whole, Rect.mem_set_unit]
  exact Iff.rfl

/-- Every index of the output is in some point's slab: its own. -/
theorem cover (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := index_onto ⟨(i 0).val, hi0⟩
  have q0 : win1_3.index t (0 : Fin 3) = (i 0).val := congrFun ht 0
  have q1 : win1_3.index t (1 : Fin 3) = 0 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2048 ≤ (i 1).val ∧ (i 1).val < win1_3.index t (1 : Fin 3) * 2048 + 2048; omega
  | ⟨2, _⟩ => show win1_3.index t (2 : Fin 3) * 64 ≤ (i 2).val ∧ (i 2).val < win1_3.index t (2 : Fin 3) * 64 + 64; omega

/-- The output array after the region: the attention of the three arrays it read. -/
theorem final (c : Dev nD) : (dat1 V c).arrAt 3 cfg1.N = attend (queryArr V c) (keyArr V c) (valueArr V c) :=
  (dat1 V c).arrAt_eq_of_cover 3 _ (fun t _ => flushed V c t) cover

end Cert.KernelIdeal.Attn

end
-- ==== Proof.Spec.lean ====
/-
  The function both programs compute, in coordinates, on the extended reals.

  `x` is a batch of 2 sequences of 2048 rows of 1024 entries, `w` a weight of 3072 rows of 1024 entries.
  * The fused projection takes row `(b, s)` of `x` to its 3072 inner products with the rows of `w`.
  * Its 3072 columns are 16 heads of 192 lanes: lanes 0–63 of a head are its query, 64–127 its key, 128–191 its value.
  * Within batch `b` and head `h`, the score of row `q` against row `k` is the inner product of their 64 query and key
    lanes times the constant of the word 0x3E000000 (one eighth), and the output at row `q`, lane `d` is the sum over
    `k` of the score times value lane `d` of row `k` — attention with no softmax.
  * The result lays the 16 heads' 64 lanes side by side again: column `64 h + d` of row `(b, q)`.
-/
import Idealize.ShloMosaic.Lib.ValueIdx

noncomputable section

namespace Cert.Spec

open Idealize.ShloMosaic Idealize.ShloMosaic.ValueIdx

abbrev SX : Shape := ⟨3, ![2, 2048, 1024]⟩
abbrev SW : Shape := ⟨2, ![3072, 1024]⟩

/-- The fused projection at batch `b`, row `s`, output column `f`. -/
def proj (x : SX.Idx → EReal) (w : SW.Idx → EReal) (b : Fin 2) (s : Fin 2048) (f : Fin 3072) : EReal :=
  ∑ e : Fin 1024, x (ix3 b s e) * w (ix2 f e)

/-- Lane `d` of the 64-lane group starting at `off` within head `h`'s 192 columns. -/
def lane (off : ℕ) (hoff : off + 64 ≤ 192) (h : Fin 16) (d : Fin 64) : Fin 3072 :=
  ⟨h.val * 192 + off + d.val, by have := h.isLt; have := d.isLt; omega⟩

/-- Attention without softmax at batch `b`, head `h`, row `q`, lane `d`. -/
def attn (x : SX.Idx → EReal) (w : SW.Idx → EReal) (b : Fin 2) (h : Fin 16) (q : Fin 2048) (d : Fin 64) : EReal :=
  ∑ k : Fin 2048,
    ((∑ j : Fin 64, proj x w b q (lane 0 (by omega) h j) * proj x w b k (lane 64 (by omega) h j))
        * Ideal.ofBits .f32 0x3E000000#32)
      * proj x w b k (lane 128 (by omega) h d)

/-- The whole result: entry `(b, q, 64 h + d)` is head `h`'s attention at row `q`, lane `d`. -/
def out (x : SX.Idx → EReal) (w : SW.Idx → EReal) : SX.Idx → EReal := fun i =>
  attn x w ⟨(i 0).val, (i 0).isLt⟩
    ⟨(i 2).val / 64, by have h2 : (i 2).val < 1024 := (i 2).isLt; omega⟩
    ⟨(i 1).val, (i 1).isLt⟩
    ⟨(i 2).val % 64, Nat.mod_lt _ (by norm_num)⟩

end Cert.Spec

end
-- ==== Proof.LibFlattenRows.lean ====
/-
  A stack of matrices laid out as one tall matrix, and back, read at an index.

  Reshaping an array of `a` matrices of `b` rows and `c` columns to one matrix of `a * b` rows and `c` columns moves
  nothing: row-major, entry `(p, r, k)` of the stack sits at position `(p * b + r) * c + k`, and entry `(row, k)` of the
  tall matrix at `row * c + k`, so the two agree exactly when `row = p * b + r`. The same holds for the reshape back.
  The tall matrix's row count is a free extent `n`, so that the lemmas apply to a printed shape by unification; the row
  is given with the equation that places it.
-/
import Idealize.ShloMosaic.Lib.ValueLayout

noncomputable section

namespace Cert.LibFlattenRows

open Idealize.ShloMosaic Idealize.ShloMosaic.ValueIdx

variable {α : Type}

/-- An `[a, b, c]` array cast to `[n, c]` reads, at row `p * b + r` and column `k`, the operand at `(p, r, k)`. -/
theorem flatten_apply {a b c n : ℕ} (x : (⟨3, ![a, b, c]⟩ : Shape).Idx → α)
    (h : (⟨3, ![a, b, c]⟩ : Shape).ShapeCasts ⟨2, ![n, c]⟩) (p : Fin a) (r : Fin b) (k : Fin c) (row : Fin n)
    (hrow : row.val = p.val * b + r.val) : shapeCast ⟨2, ![n, c]⟩ x h (ix2 row k) = x (ix3 p r k) :=
  shapeCast_apply x h _ _ (by
    rw [Shape.rowMajor_val_three, Shape.rowMajor_val_two]
    show (p.val * b + r.val) * c + k.val = row.val * c + k.val
    rw [hrow])

/-- An `[n, c]` array cast to `[a, b, c]` reads, at `(p, r, k)`, the operand at row `p * b + r` and column `k`. -/
theorem unflatten_apply {a b c n : ℕ} (y : (⟨2, ![n, c]⟩ : Shape).Idx → α)
    (h : (⟨2, ![n, c]⟩ : Shape).ShapeCasts ⟨3, ![a, b, c]⟩) (p : Fin a) (r : Fin b) (k : Fin c) (row : Fin n)
    (hrow : row.val = p.val * b + r.val) : shapeCast ⟨3, ![a, b, c]⟩ y h (ix3 p r k) = y (ix2 row k) :=
  shapeCast_apply y h _ _ (by
    rw [Shape.rowMajor_val_two, Shape.rowMajor_val_three]
    show row.val * c + k.val = (p.val * b + r.val) * c + k.val
    rw [hrow])

end Cert.LibFlattenRows

end
-- ==== Proof.Fold.lean ====
/-
  The kernel program's result, followed through @main from the launch memory.

  @main is five segments. (1) A host stretch narrows `x` and flattens its two leading axes into 4096 rows, and narrows
  and transposes `w`: row `2048 b + s` of the tall matrix is row `(b, s)` of `x`, entry `(e, f)` of the transposed
  weight is `w (f, e)`. (2) The projection region leaves their product. (3) A host stretch reshapes its 3072 columns
  into 16 heads of 192 lanes, brings the head axis forward, slices the query, key and value lanes and flattens
  (batch, head) into 32 slabs: slab `16 b + h`, row `q`, lane `d` of the queries is the projection of row `(b, q)` at
  column `192 h + d` (keys at `+ 64`, values at `+ 128`). (4) The attention region leaves, slab by slab, the sum over key
  rows of scaled score times value. (5) A host stretch unflattens the slabs, brings the row axis forward again and
  lays the heads' lanes side by side: entry `(b, q, 64 h + d)` of the result is slab `16 b + h`, row `q`, lane `d`.
  Narrowing is the identity on the extended reals. Read at an index each step renames coordinates, so the result
  is the specification of the launch arguments.
-/
import proofs.«182077_j63848983822744_1_alg».proof.Proof.Gen.KernelIdeal.Frame
import proofs.«182077_j63848983822744_1_alg».proof.Proof.Proj
import proofs.«182077_j63848983822744_1_alg».proof.Proof.Attn
import proofs.«182077_j63848983822744_1_alg».proof.Proof.Spec
import proofs.«182077_j63848983822744_1_alg».proof.Proof.LibFlattenRows
import Idealize.ShloMosaic.Lib.Pipeline.Value
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## Before the projection -/

/-- The tall matrix the projection reads: `x` narrowed, its two leading axes flattened. -/
theorem rows_eq (c : Dev nD) :
    V1 m ρ c main_v1 = shapeCast S4096x1024 (truncf (F := Ideal) .bf16 (m ((c : Thread nD τ).loc main_arg0)) bitsLt_bf16_f32) shapeCasts_S2x2048x1024_S4096x1024 := by
  show StableHlo.after hostOps0 (W0 m ρ c) (Proc.devRef .tc main_v1) = _
  dsimp only [hostOps0]
  after_results
  rfl

/-- Row `2048 b + s` of the tall matrix is row `(b, s)` of `x`. -/
theorem rows_apply (c : Dev nD) (b : Fin 2) (s : Fin 2048) (e : Fin 1024) (row : Fin 4096) (hrow : row.val = b.val * 2048 + s.val) :
    Proj.rowsArr (V1 m ρ) c (ix2 row e) = m ((c : Thread nD τ).loc main_arg0) (ix3 b s e) := by
  show V1 m ρ c main_v1 (ix2 row e) = _
  rw [rows_eq]
  exact Cert.LibFlattenRows.flatten_apply _ _ b s e row hrow

/-- The weight the projection reads: `w` narrowed and transposed. -/
theorem weight_eq (c : Dev nD) :
    V1 m ρ c main_v3 = transpose S1024x3072 [1, 0] (truncf (F := Ideal) .bf16 (m ((c : Thread nD τ).loc main_arg1)) bitsLt_bf16_f32) transposes_S3072x1024_S1024x3072_1_0 := by
  show StableHlo.after hostOps0 (W0 m ρ c) (Proc.devRef .tc main_v3) = _
  dsimp only [hostOps0]
  after_results

/-- Entry `(e, f)` of the transposed weight is `w (f, e)`. -/
theorem weight_apply (c : Dev nD) (e : Fin 1024) (f : Fin 3072) :
    Proj.weightArr (V1 m ρ) c (ix2 e f) = m ((c : Thread nD τ).loc main_arg1) (ix2 f e) := by
  show V1 m ρ c main_v3 (ix2 e f) = _
  rw [weight_eq]
  exact transpose_apply [1, 0] _ transposes_S3072x1024_S1024x3072_1_0 (ix2 e f) (ix2 f e) (fun b => match b with
    | ⟨0, _⟩ => rfl
    | ⟨1, _⟩ => rfl)

/-! ## The projection -/

/-- The projection region's output array when it is left. -/
theorem proj_eq (c : Dev nD) :
    W2 m ρ c (Proc.devRef .tc main_v4) = Proj.prod (Proj.rowsArr (V1 m ρ) c) (Proj.weightArr (V1 m ρ) c) :=
  (W2_arr m ρ c 2).trans (Proj.final (V1 m ρ) c)

/-- Row `2048 b + s`, column `f` of it is the fused projection of row `(b, s)` at column `f`. -/
theorem proj_apply (c : Dev nD) (b : Fin 2) (s : Fin 2048) (f : Fin 3072) (row : Fin 4096) (hrow : row.val = b.val * 2048 + s.val) :
    W2 m ρ c (Proc.devRef .tc main_v4) (ix2 row f)
      = Cert.Spec.proj (m ((c : Thread nD τ).loc main_arg0)) (m ((c : Thread nD τ).loc main_arg1)) b s f := by
  rw [proj_eq]
  show ∑ e : Fin 1024, Proj.rowsArr (V1 m ρ) c (ix2 row e) * Proj.weightArr (V1 m ρ) c (ix2 e f) = _
  unfold Cert.Spec.proj
  exact Finset.sum_congr rfl fun e _ => by rw [rows_apply m ρ c b s e row hrow, weight_apply]

/-! ## Between the regions -/

/-- One 64-lane slice of the projection, as a slab array: slab `16 b + h`, row `q`, lane `d` is the tall product's
    row `2048 b + q`, column `192 h + off + d`. -/
theorem slab_apply {α : Type} (P : S4096x3072.Idx → α) (off : ℕ) (hs : S2x16x2048x192.Slices ![0, 0, 0, off] S2x16x2048x64)
    (hoff : off + 64 ≤ 192) (b : Fin 2) (h : Fin 16) (q : Fin 2048) (d : Fin 64)
    (slab : Fin 32) (hslab : slab.val = b.val * 16 + h.val) (row : Fin 4096) (hrow : row.val = b.val * 2048 + q.val)
    (col : Fin 3072) (hcol : col.val = h.val * 192 + off + d.val) :
    shapeCast S32x2048x64 (extractStridedSlice S2x16x2048x64 ![0, 0, 0, off]
        (transpose S2x16x2048x192 [0, 2, 1, 3] (shapeCast S2x2048x16x192 P shapeCasts_S4096x3072_S2x2048x16x192)
          transposes_S2x2048x16x192_S2x16x2048x192_0_2_1_3) hs) shapeCasts_S2x16x2048x64_S32x2048x64 (ix3 slab q d)
      = P (ix2 row col) := by
  have hd : d.val < 64 := d.isLt
  rw [shapeCast_apply _ shapeCasts_S2x16x2048x64_S32x2048x64 (ix3 slab q d) (ix4 b h q d) (by
    rw [Shape.rowMajor_val_four, Shape.rowMajor_val_three]
    show ((b.val * 16 + h.val) * 2048 + q.val) * 64 + d.val = (slab.val * 2048 + q.val) * 64 + d.val
    rw [hslab])]
  rw [extractStridedSlice_apply ![0, 0, 0, off] _ hs (ix4 b h q d) (ix4 b h q (⟨off + d.val, by omega⟩ : Fin 192)) (fun a => match a with
    | ⟨0, _⟩ => by show b.val = 0 + b.val; omega
    | ⟨1, _⟩ => by show h.val = 0 + h.val; omega
    | ⟨2, _⟩ => by show q.val = 0 + q.val; omega
    | ⟨3, _⟩ => by show off + d.val = off + d.val; rfl)]
  rw [transpose_apply [0, 2, 1, 3] _ transposes_S2x2048x16x192_S2x16x2048x192_0_2_1_3 (ix4 b h q (⟨off + d.val, by omega⟩ : Fin 192))
    (ix4 b q h (⟨off + d.val, by omega⟩ : Fin 192)) (fun a => match a with
    | ⟨0, _⟩ => rfl
    | ⟨1, _⟩ => rfl
    | ⟨2, _⟩ => rfl
    | ⟨3, _⟩ => rfl)]
  exact shapeCast_apply P shapeCasts_S4096x3072_S2x2048x16x192 (ix4 b q h (⟨off + d.val, by omega⟩ : Fin 192)) (ix2 row col) (by
    rw [Shape.rowMajor_val_two, Shape.rowMajor_val_four]
    show row.val * 3072 + col.val = ((b.val * 2048 + q.val) * 16 + h.val) * 192 + (off + d.val)
    rw [hrow, hcol]; omega)

/-- The attention region's three input arrays as the second host stretch leaves them. -/
theorem query_eq (c : Dev nD) :
    V3 m ρ c main_v10 = shapeCast S32x2048x64 (extractStridedSlice S2x16x2048x64 ![0, 0, 0, 0]
        (transpose S2x16x2048x192 [0, 2, 1, 3] (shapeCast S2x2048x16x192 (W2 m ρ c (Proc.devRef .tc main_v4)) shapeCasts_S4096x3072_S2x2048x16x192)
          transposes_S2x2048x16x192_S2x16x2048x192_0_2_1_3) slices_S2x16x2048x192_S2x16x2048x64_0_0_0_0) shapeCasts_S2x16x2048x64_S32x2048x64 := by
  show StableHlo.after hostOps1 (W2 m ρ c) (Proc.devRef .tc main_v10) = _
  dsimp only [hostOps1]
  after_results
  rfl
theorem key_eq (c : Dev nD) :
    V3 m ρ c main_v11 = shapeCast S32x2048x64 (extractStridedSlice S2x16x2048x64 ![0, 0, 0, 64]
        (transpose S2x16x2048x192 [0, 2, 1, 3] (shapeCast S2x2048x16x192 (W2 m ρ c (Proc.devRef .tc main_v4)) shapeCasts_S4096x3072_S2x2048x16x192)
          transposes_S2x2048x16x192_S2x16x2048x192_0_2_1_3) slices_S2x16x2048x192_S2x16x2048x64_0_0_0_64) shapeCasts_S2x16x2048x64_S32x2048x64 := by
  show StableHlo.after hostOps1 (W2 m ρ c) (Proc.devRef .tc main_v11) = _
  dsimp only [hostOps1]
  after_results
  rfl
theorem value_eq (c : Dev nD) :
    V3 m ρ c main_v12 = shapeCast S32x2048x64 (extractStridedSlice S2x16x2048x64 ![0, 0, 0, 128]
        (transpose S2x16x2048x192 [0, 2, 1, 3] (shapeCast S2x2048x16x192 (W2 m ρ c (Proc.devRef .tc main_v4)) shapeCasts_S4096x3072_S2x2048x16x192)
          transposes_S2x2048x16x192_S2x16x2048x192_0_2_1_3) slices_S2x16x2048x192_S2x16x2048x64_0_0_0_128) shapeCasts_S2x16x2048x64_S32x2048x64 := by
  show StableHlo.after hostOps1 (W2 m ρ c) (Proc.devRef .tc main_v12) = _
  dsimp only [hostOps1]
  after_results
  rfl

/-- Slab `16 b + h`, row `q`, lane `d` of the queries, keys and values: the fused projection of row `(b, q)` at head
    `h`'s query, key and value lane `d`. -/
theorem query_apply (c : Dev nD) (b : Fin 2) (h : Fin 16) (q : Fin 2048) (d : Fin 64) (slab : Fin 32) (hslab : slab.val = b.val * 16 + h.val) :
    Attn.queryArr (V3 m ρ) c (ix3 slab q d)
      = Cert.Spec.proj (m ((c : Thread nD τ).loc main_arg0)) (m ((c : Thread nD τ).loc main_arg1)) b q (Cert.Spec.lane 0 (by omega) h d) := by
  have hb : b.val < 2 := b.isLt
  have hq : q.val < 2048 := q.isLt
  show V3 m ρ c main_v10 (ix3 slab q d) = _
  rw [query_eq, slab_apply _ 0 _ (by omega) b h q d slab hslab (⟨b.val * 2048 + q.val, by omega⟩ : Fin 4096) rfl (Cert.Spec.lane 0 (by omega) h d) rfl]
  exact proj_apply m ρ c b q _ _ rfl
theorem key_apply (c : Dev nD) (b : Fin 2) (h : Fin 16) (q : Fin 2048) (d : Fin 64) (slab : Fin 32) (hslab : slab.val = b.val * 16 + h.val) :
    Attn.keyArr (V3 m ρ) c (ix3 slab q d)
      = Cert.Spec.proj (m ((c : Thread nD τ).loc main_arg0)) (m ((c : Thread nD τ).loc main_arg1)) b q (Cert.Spec.lane 64 (by omega) h d) := by
  have hb : b.val < 2 := b.isLt
  have hq : q.val < 2048 := q.isLt
  show V3 m ρ c main_v11 (ix3 slab q d) = _
  rw [key_eq, slab_apply _ 64 _ (by omega) b h q d slab hslab (⟨b.val * 2048 + q.val, by omega⟩ : Fin 4096) rfl (Cert.Spec.lane 64 (by omega) h d) rfl]
  exact proj_apply m ρ c b q _ _ rfl
theorem value_apply (c : Dev nD) (b : Fin 2) (h : Fin 16) (q : Fin 2048) (d : Fin 64) (slab : Fin 32) (hslab : slab.val = b.val * 16 + h.val) :
    Attn.valueArr (V3 m ρ) c (ix3 slab q d)
      = Cert.Spec.proj (m ((c : Thread nD τ).loc main_arg0)) (m ((c : Thread nD τ).loc main_arg1)) b q (Cert.Spec.lane 128 (by omega) h d) := by
  have hb : b.val < 2 := b.isLt
  have hq : q.val < 2048 := q.isLt
  show V3 m ρ c main_v12 (ix3 slab q d) = _
  rw [value_eq, slab_apply _ 128 _ (by omega) b h q d slab hslab (⟨b.val * 2048 + q.val, by omega⟩ : Fin 4096) rfl (Cert.Spec.lane 128 (by omega) h d) rfl]
  exact proj_apply m ρ c b q _ _ rfl

/-! ## The attention -/

/-- The attention region's output array when it is left. -/
theorem attn_eq (c : Dev nD) :
    W4 m ρ c (Proc.devRef .tc main_v13) = Attn.attend (Attn.queryArr (V3 m ρ) c) (Attn.keyArr (V3 m ρ) c) (Attn.valueArr (V3 m ρ) c) :=
  (W4_arr m ρ c 3).trans (Attn.final (V3 m ρ) c)

/-- Slab `16 b + h`, row `q`, lane `d` of it is the specification's attention at `(b, h, q, d)`. -/
theorem attn_apply (c : Dev nD) (b : Fin 2) (h : Fin 16) (q : Fin 2048) (d : Fin 64) (slab : Fin 32) (hslab : slab.val = b.val * 16 + h.val) :
    W4 m ρ c (Proc.devRef .tc main_v13) (ix3 slab q d)
      = Cert.Spec.attn (m ((c : Thread nD τ).loc main_arg0)) (m ((c : Thread nD τ).loc main_arg1)) b h q d := by
  rw [attn_eq]
  show ∑ k : Fin 2048, ((∑ j : Fin 64, Attn.queryArr (V3 m ρ) c (ix3 slab q j) * Attn.keyArr (V3 m ρ) c (ix3 slab k j)) * Ideal.ofBits .f32 0x3E000000#32)
      * Attn.valueArr (V3 m ρ) c (ix3 slab k d) = _
  unfold Cert.Spec.attn
  refine Finset.sum_congr rfl fun k _ => ?_
  rw [value_apply m ρ c b h k d slab hslab]
  refine congrArg (· * _) (congrArg (· * _) (Finset.sum_congr rfl fun j _ => ?_))
  rw [query_apply m ρ c b h q j slab hslab, key_apply m ρ c b h k j slab hslab]

/-! ## After the attention -/

/-- The result buffer as the last host stretch leaves it. -/
theorem result_eq (c : Dev nD) :
    W5 m ρ c (Proc.devRef .tc main_v16) = shapeCast S2x2048x1024 (transpose S2x2048x16x64 [0, 2, 1, 3]
        (shapeCast S2x16x2048x64 (W4 m ρ c (Proc.devRef .tc main_v13)) shapeCasts_S32x2048x64_S2x16x2048x64)
        transposes_S2x16x2048x64_S2x2048x16x64_0_2_1_3) shapeCasts_S2x2048x16x64_S2x2048x1024 := by
  show StableHlo.after hostOps2 (W4 m ρ c) (Proc.devRef .tc main_v16) = _
  dsimp only [hostOps2]
  after_results
  rfl

/-- The kernel program's result is the specification of the launch arguments. -/
theorem result_spec (c : Dev nD) :
    W5 m ρ c (Proc.devRef .tc main_v16)
      = Cert.Spec.out (m ((c : Thread nD τ).loc main_arg0)) (m ((c : Thread nD τ).loc main_arg1)) := by
  rw [result_eq]
  funext i
  have h0 : (i 0).val < 2 := (i 0).isLt
  have h1 : (i 1).val < 2048 := (i 1).isLt
  have h2 : (i 2).val < 1024 := (i 2).isLt
  rw [shapeCast_apply _ shapeCasts_S2x2048x16x64_S2x2048x1024 i
    (ix4 (⟨(i 0).val, h0⟩ : Fin 2) (⟨(i 1).val, h1⟩ : Fin 2048) (⟨(i 2).val / 64, by omega⟩ : Fin 16) (⟨(i 2).val % 64, by omega⟩ : Fin 64)) (by
      rw [Shape.rowMajor_val_four, Shape.rowMajor_val_three]
      show (((i 0).val * 2048 + (i 1).val) * 16 + (i 2).val / 64) * 64 + (i 2).val % 64 = ((i 0).val * 2048 + (i 1).val) * 1024 + (i 2).val
      omega)]
  rw [transpose_apply [0, 2, 1, 3] _ transposes_S2x16x2048x64_S2x2048x16x64_0_2_1_3
    (ix4 (⟨(i 0).val, h0⟩ : Fin 2) (⟨(i 1).val, h1⟩ : Fin 2048) (⟨(i 2).val / 64, by omega⟩ : Fin 16) (⟨(i 2).val % 64, by omega⟩ : Fin 64))
    (ix4 (⟨(i 0).val, h0⟩ : Fin 2) (⟨(i 2).val / 64, by omega⟩ : Fin 16) (⟨(i 1).val, h1⟩ : Fin 2048) (⟨(i 2).val % 64, by omega⟩ : Fin 64)) (fun a => match a with
    | ⟨0, _⟩ => rfl
    | ⟨1, _⟩ => rfl
    | ⟨2, _⟩ => rfl
    | ⟨3, _⟩ => rfl)]
  rw [shapeCast_apply _ shapeCasts_S32x2048x64_S2x16x2048x64
    (ix4 (⟨(i 0).val, h0⟩ : Fin 2) (⟨(i 2).val / 64, by omega⟩ : Fin 16) (⟨(i 1).val, h1⟩ : Fin 2048) (⟨(i 2).val % 64, by omega⟩ : Fin 64))
    (ix3 (⟨(i 0).val * 16 + (i 2).val / 64, by omega⟩ : Fin 32) (⟨(i 1).val, h1⟩ : Fin 2048) (⟨(i 2).val % 64, by omega⟩ : Fin 64)) (by
      rw [Shape.rowMajor_val_three, Shape.rowMajor_val_four]
      rfl)]
  exact attn_apply m ρ c _ _ _ _ _ rfl

end Cert.KernelIdeal.Fold

end
-- ==== Proof.Consts.lean ====
/-
  The two float constants of this certificate, as the extended reals their words denote.

  The kernel scales the scores by the word 0x3E000000, which is 2⁻³ = 1/8 exactly; the reference divides them by the
  word 0x41000000, which is 2³ = 8 exactly. On the extended reals division by a nonzero real is multiplication by its
  inverse, for every extended real (the infinities included), so the two programs scale alike.
-/
import Idealize.ShloMosaic.PureOps.Ideal

noncomputable section

namespace Cert.Consts

open Idealize.ShloMosaic

/-- The word of `8.0` denotes the real 8. -/
theorem ofBits_eight : Ideal.ofBits .f32 0x41000000#32 = ((8 : ℝ) : EReal) := by
  simp [Ideal.ofBits, Ideal.ieee, -EReal.coe_mul]; norm_num

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- Dividing by eight is multiplying by one eighth, on every extended real. -/
theorem div_eight (a : EReal) :
    Ideal.div a (Ideal.ofBits .f32 0x41000000#32) = a * Ideal.ofBits .f32 0x3E000000#32 := by
  rw [ofBits_eight, ofBits_eighth, Ideal.div_coe (by norm_num : (8 : ℝ) ≠ 0)]

end Cert.Consts

end
-- ==== Proof.RefValue.lean ====
/-
  The reference program's result is the specification, index by index.

  Its run composes: one product of `x` with the rows of `w` (the fused projection), a reshape of the 3072 columns into
  16 heads of 192 lanes, a transpose that brings the head axis before the row axis, three slices of 64 lanes (query,
  key, value), the scores as a batched product over the 64 lanes, a division of every score by the word of 8, the
  batched product of the scores with the values over the 2048 key rows, and the transpose and reshape back. Each
  layout step only renames an index; followed back to the arguments, the entry at `(b, q, 64 h + d)` is the sum over
  `k` of (the inner product of query lanes of row `q` with key lanes of row `k`, over 8) times value lane `d` of row
  `k`. Dividing by 8 is multiplying by one eighth on every extended real, which is the specification's scale.
-/
import proofs.«182077_j63848983822744_1_alg».proof.Proof.Gen.ReferenceIdeal.Read
import proofs.«182077_j63848983822744_1_alg».proof.Proof.Spec
import proofs.«182077_j63848983822744_1_alg».proof.Proof.Consts

set_option maxRecDepth 16384

noncomputable section

namespace Cert.ReferenceIdeal.RefValue

open Cert.ReferenceIdeal Cert.ReferenceIdeal.Gen Cert.ReferenceIdeal.Read Idealize.ShloMosaic Idealize.ShloMosaic.ValueIdx

variable (x : (⟨S2x2048x1024, .f32⟩ : BufTy).Contents (Elt Ideal)) (w : (⟨S3072x1024, .f32⟩ : BufTy).Contents (Elt Ideal))

/-- The projection after its reshape into heads and the transpose: entry `(b, h, s, j)` is the fused projection of
    row `(b, s)` at column `192 h + j`. -/
theorem heads_apply (b : Fin 2) (h : Fin 16) (s : Fin 2048) (j : Fin 192) (f : Fin 3072) (hf : f.val = h.val * 192 + j.val) :
    val_main_v2 (F := Ideal) x w (ix4 b h s j) = Cert.Spec.proj x w b s f := by
  have hb : b.val < 2 := b.isLt
  have hh : h.val < 16 := h.isLt
  have hs : s.val < 2048 := s.isLt
  have hj : j.val < 192 := j.isLt
  rw [val_main_v2_apply, val_main_v1_apply, val_main_v0_apply]
  unfold Cert.Spec.proj
  refine Finset.sum_congr rfl fun e _ => ?_
  have el : lidx_main_v0 (idx_main_v1 (idx_main_v2 (ix4 b h s j))) e = ix3 b s e := funext fun a => Fin.ext (by
    match a with
    | ⟨0, _⟩ => show (((b.val * 2048 + s.val) * 16 + h.val) * 192 + j.val) / 6291456 = b.val; omega
    | ⟨1, _⟩ => show (((b.val * 2048 + s.val) * 16 + h.val) * 192 + j.val) / 3072 % 2048 = s.val; omega
    | ⟨2, _⟩ => rfl)
  have er : ridx_main_v0 (idx_main_v1 (idx_main_v2 (ix4 b h s j))) e = ix2 f e := funext fun a => Fin.ext (by
    match a with
    | ⟨0, _⟩ => show (((b.val * 2048 + s.val) * 16 + h.val) * 192 + j.val) % 3072 = f.val; omega
    | ⟨1, _⟩ => rfl)
  rw [el, er]

/-- The query slice: lanes 0–63 of each head. -/
theorem query_apply (b : Fin 2) (h : Fin 16) (s : Fin 2048) (d : Fin 64) :
    val_main_v3 (F := Ideal) x w (ix4 b h s d) = Cert.Spec.proj x w b s (Cert.Spec.lane 0 (by omega) h d) := by
  have hd : d.val < 64 := d.isLt
  rw [val_main_v3_apply]
  have e : idx_main_v3 (ix4 b h s d) = ix4 b h s (⟨d.val, by omega⟩ : Fin 192) := funext fun a => by
    match a with | ⟨0, _⟩ => rfl | ⟨1, _⟩ => rfl | ⟨2, _⟩ => rfl | ⟨3, _⟩ => rfl
  rw [e]
  exact heads_apply x w b h s _ _ (by show h.val * 192 + 0 + d.val = h.val * 192 + d.val; omega)

/-- The key slice: lanes 64–127 of each head. -/
theorem key_apply (b : Fin 2) (h : Fin 16) (s : Fin 2048) (d : Fin 64) :
    val_main_v4 (F := Ideal) x w (ix4 b h s d) = Cert.Spec.proj x w b s (Cert.Spec.lane 64 (by omega) h d) := by
  have hd : d.val < 64 := d.isLt
  rw [val_main_v4_apply]
  have e : idx_main_v4 (ix4 b h s d) = ix4 b h s (⟨64 + d.val, by omega⟩ : Fin 192) := funext fun a => by
    match a with | ⟨0, _⟩ => rfl | ⟨1, _⟩ => rfl | ⟨2, _⟩ => rfl | ⟨3, _⟩ => rfl
  rw [e]
  exact heads_apply x w b h s _ _ (by show h.val * 192 + 64 + d.val = h.val * 192 + (64 + d.val); omega)

/-- The value slice: lanes 128–191 of each head. -/
theorem value_apply (b : Fin 2) (h : Fin 16) (s : Fin 2048) (d : Fin 64) :
    val_main_v5 (F := Ideal) x w (ix4 b h s d) = Cert.Spec.proj x w b s (Cert.Spec.lane 128 (by omega) h d) := by
  have hd : d.val < 64 := d.isLt
  rw [val_main_v5_apply]
  have e : idx_main_v5 (ix4 b h s d) = ix4 b h s (⟨128 + d.val, by omega⟩ : Fin 192) := funext fun a => by
    match a with | ⟨0, _⟩ => rfl | ⟨1, _⟩ => rfl | ⟨2, _⟩ => rfl | ⟨3, _⟩ => rfl
  rw [e]
  exact heads_apply x w b h s _ _ (by show h.val * 192 + 128 + d.val = h.val * 192 + (128 + d.val); omega)

/-- The operand indices of the two batched products, over coordinates. -/
theorem lidx9 (b : Fin 2) (h : Fin 16) (q : Fin 2048) (d : Fin 64) (k : Fin 2048) :
    lidx_main_v9 (ix4 b h q d) k = ix4 b h q k := funext fun a => by
  match a with | ⟨0, _⟩ => rfl | ⟨1, _⟩ => rfl | ⟨2, _⟩ => rfl | ⟨3, _⟩ => rfl
theorem ridx9 (b : Fin 2) (h : Fin 16) (q : Fin 2048) (d : Fin 64) (k : Fin 2048) :
    ridx_main_v9 (ix4 b h q d) k = ix4 b h k d := funext fun a => by
  match a with | ⟨0, _⟩ => rfl | ⟨1, _⟩ => rfl | ⟨2, _⟩ => rfl | ⟨3, _⟩ => rfl
theorem lidx6 (b : Fin 2) (h : Fin 16) (q k : Fin 2048) (j : Fin 64) :
    lidx_main_v6 (ix4 b h q k) j = ix4 b h q j := funext fun a => by
  match a with | ⟨0, _⟩ => rfl | ⟨1, _⟩ => rfl | ⟨2, _⟩ => rfl | ⟨3, _⟩ => rfl
theorem ridx6 (b : Fin 2) (h : Fin 16) (q k : Fin 2048) (j : Fin 64) :
    ridx_main_v6 (ix4 b h q k) j = ix4 b h k j := funext fun a => by
  match a with | ⟨0, _⟩ => rfl | ⟨1, _⟩ => rfl | ⟨2, _⟩ => rfl | ⟨3, _⟩ => rfl

/-- The reference's result is the specification. -/
theorem result_eq : val_main_v11 (F := Ideal) x w = Cert.Spec.out x w := by
  funext i
  have h0 : (i 0).val < 2 := (i 0).isLt
  have h1 : (i 1).val < 2048 := (i 1).isLt
  have h2 : (i 2).val < 1024 := (i 2).isLt
  rw [val_main_v11_apply, val_main_v10_apply]
  have hI : idx_main_v10 (idx_main_v11 i)
      = ix4 (⟨(i 0).val, h0⟩ : Fin 2) (⟨(i 2).val / 64, by omega⟩ : Fin 16) (⟨(i 1).val, h1⟩ : Fin 2048) (⟨(i 2).val % 64, by omega⟩ : Fin 64) :=
    funext fun a => Fin.ext (by
      match a with
      | ⟨0, _⟩ => show (((i 0).val * 2048 + (i 1).val) * 1024 + (i 2).val) / 2097152 = (i 0).val; omega
      | ⟨1, _⟩ => show (((i 0).val * 2048 + (i 1).val) * 1024 + (i 2).val) / 64 % 16 = (i 2).val / 64; omega
      | ⟨2, _⟩ => show (((i 0).val * 2048 + (i 1).val) * 1024 + (i 2).val) / 1024 % 2048 = (i 1).val; omega
      | ⟨3, _⟩ => show (((i 0).val * 2048 + (i 1).val) * 1024 + (i 2).val) % 64 = (i 2).val % 64; omega)
  rw [hI, val_main_v9_apply]
  show _ = Cert.Spec.attn x w (⟨(i 0).val, h0⟩ : Fin 2) (⟨(i 2).val / 64, by omega⟩ : Fin 16) (⟨(i 1).val, h1⟩ : Fin 2048) (⟨(i 2).val % 64, by omega⟩ : Fin 64)
  unfold Cert.Spec.attn
  refine Finset.sum_congr rfl fun k _ => ?_
  rw [lidx9, ridx9, val_main_v8_apply, val_main_v7_apply, val_main_cst_apply, val_main_v6_apply, Ideal.hostDivf_def,
    Ideal.ofBits_def, Cert.Consts.div_eight, value_apply]
  refine congrArg (· * _) (congrArg (· * _) (Finset.sum_congr rfl fun j _ => ?_))
  rw [lidx6, ridx6, query_apply, key_apply]

end Cert.ReferenceIdeal.RefValue

end
-- ==== Proof.lean ====
/- The proof of `Cert.Claim`: the kernel program (a fused query/key/value projection and an attention without
   softmax, two pipelined regions among host relayouts) against its reference, over the extended reals.

   Both programs compute one function of `x` and `w` (Proof/Spec.lean): project every row of `x` onto the 3072 rows of
   `w`; read the 3072 columns as 16 heads of query, key and value lanes; within a head, weight each value row by the
   inner product of query and key lanes times one eighth and sum over the key rows; lay the heads side by side.
   The kernel scales by the exact constant 1/8 where the reference divides by 8, which agree on every extended real;
   every other difference is a layout step or a change of float format, the identity here. No algebraic law beyond
   that is used, so the precondition is never opened.

   * the three frames: the two kernel programs' are the generated frames; the reference's is its generated run with
     the result dropped;
   * `preserves`: the idealization rewrote nothing, so it is `True`;
   * `algebraic`: the kernel's run with its result named (Proof/KernelRun.lean), that result followed through @main to
     the specification (Proof/Fold.lean over Proof/Proj.lean, Proof/Attn.lean and Proof/Pay.lean), and the reference's
     generated run, its result the specification too (Proof/RefValue.lean over the generated read lemmas). -/
import proofs.«182077_j63848983822744_1_alg».proof.Defs
import proofs.«182077_j63848983822744_1_alg».proof.Proof.Gen.Kernel
import proofs.«182077_j63848983822744_1_alg».proof.Proof.Gen.Kernel.Frame
import proofs.«182077_j63848983822744_1_alg».proof.Proof.Gen.KernelIdeal
import proofs.«182077_j63848983822744_1_alg».proof.Proof.Gen.KernelIdeal.Frame
import proofs.«182077_j63848983822744_1_alg».proof.Proof.Gen.ReferenceIdeal
import proofs.«182077_j63848983822744_1_alg».proof.Proof.Gen.ReferenceIdeal.Run
import proofs.«182077_j63848983822744_1_alg».proof.Proof.Gen.ReferenceIdeal.Read
import proofs.«182077_j63848983822744_1_alg».proof.Proof.Gen.Pre_finite_inputs
import proofs.«182077_j63848983822744_1_alg».proof.Proof.KernelRun
import proofs.«182077_j63848983822744_1_alg».proof.Proof.Fold
import proofs.«182077_j63848983822744_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the specification of the (agreeing) arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Fold.result_spec m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
